-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v85)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v85) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x2 : Shape := ⟨2, ![131072, 2]⟩
abbrev S1024x4 : Shape := ⟨2, ![1024, 4]⟩
abbrev S_ : Shape := ⟨0, ![]⟩

class Facts : Prop where
  bcast_S_S131072x2 : S_.BroadcastsInDim S131072x2 (![] : Fin 0 → Fin S131072x2.rank)
  reducesTo_S131072x2_S_d0_1 : S131072x2.ReducesTo [0, 1] S_
  h_S_ : 0 < S_.numel
  bcast_S_S1024x4 : S_.BroadcastsInDim S1024x4 (![] : Fin 0 → Fin S1024x4.rank)
  reducesTo_S1024x4_S_d0_1 : S1024x4.ReducesTo [0, 1] S_

variable [Facts]

def fn {F : FTy → Type} [FloatOps F] (main_arg0 : FVec F S131072x2 .f32) (main_arg1 : FVec F S1024x4 .f32) : IVec S_ 1 :=
  let main_v0 : FVec F S131072x2 .f32 := Host.absf main_arg0
  let main_cst : FVec F S_ .f32 := constant S_ .f32 0x7F800000#32
  let main_v1 : FVec F S131072x2 .f32 := broadcastInDim S131072x2 ![] bcast_S_S131072x2 main_cst
  let main_v2 : IVec S131072x2 1 := cmpf .olt main_v0 main_v1
  let main_c : IVec S_ 1 := constantI S_ 1 1#1
  let main_v3 : IVec S_ 1 := (fun x v => Host.reduce IntOp.andi x v reducesTo_S131072x2_S_d0_1 h_S_) main_v2 main_c
  let main_v4 : FVec F S1024x4 .f32 := Host.absf main_arg1
  let main_cst_0 : FVec F S_ .f32 := constant S_ .f32 0x7F800000#32
  let main_v5 : FVec F S1024x4 .f32 := broadcastInDim S1024x4 ![] bcast_S_S1024x4 main_cst_0
  let main_v6 : IVec S1024x4 1 := cmpf .olt main_v4 main_v5
  let main_c_1 : IVec S_ 1 := constantI S_ 1 1#1
  let main_v7 : IVec S_ 1 := (fun x v => Host.reduce IntOp.andi x v reducesTo_S1024x4_S_d0_1 h_S_) main_v6 main_c_1
  let main_v8 : IVec S_ 1 := andi main_v3 main_v7
  main_v8
-- ==== Kernel.lean ====
abbrev S131072x2 : Shape := ⟨2, ![131072, 2]⟩
abbrev S1024x4 : Shape := ⟨2, ![1024, 4]⟩
abbrev S1024x1 : Shape := ⟨2, ![1024, 1]⟩
abbrev S1024 : Shape := ⟨1, ![1024]⟩
abbrev S_ : Shape := ⟨0, ![]⟩
abbrev S131072x1 : Shape := ⟨2, ![131072, 1]⟩
abbrev S131072 : Shape := ⟨1, ![131072]⟩
abbrev S1x1024 : Shape := ⟨2, ![1, 1024]⟩
abbrev S131072x1024 : Shape := ⟨2, ![131072, 1024]⟩
abbrev S4096x1 : Shape := ⟨2, ![4096, 1]⟩
abbrev S4096x1024 : Shape := ⟨2, ![4096, 1024]⟩

abbrev nBuf : Space → Nat
  | .hbm => 113
  | .vmem => 10
  | .smem => 0
  | _ => 0

abbrev bufTy : (tb : Table) → Fin (tcTables nBuf tb) → BufTy
  | .hbm, ⟨0, _⟩ => ⟨S131072x2, .f32⟩
  | .hbm, ⟨1, _⟩ => ⟨S1024x4, .f32⟩
  | .hbm, ⟨2, _⟩ => ⟨S1024x1, .f32⟩
  | .hbm, ⟨3, _⟩ => ⟨S1024, .f32⟩
  | .hbm, ⟨4, _⟩ => ⟨S1024x1, .f32⟩
  | .hbm, ⟨5, _⟩ => ⟨S1024, .f32⟩
  | .hbm, ⟨6, _⟩ => ⟨S1024, .f32⟩
  | .hbm, ⟨7, _⟩ => ⟨S_, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S1024, .f32⟩
  | .hbm, ⟨12, _⟩ => ⟨S_, .f32⟩
  | .hbm, ⟨13, _⟩ => ⟨S1024, .f32⟩
  | .hbm, ⟨14, _⟩ => ⟨S1024, .f32⟩
  | .hbm, ⟨15, _⟩ => ⟨S_, .f32⟩
  | .hbm, ⟨16, _⟩ => ⟨S1024, .f32⟩
  | .hbm, ⟨17, _⟩ => ⟨S1024, .f32⟩
  | .hbm, ⟨18, _⟩ => ⟨S1024, .f32⟩
  | .hbm, ⟨19, _⟩ => ⟨S1024, .f32⟩
  | .hbm, ⟨20, _⟩ => ⟨S1024x1, .f32⟩
  | .hbm, ⟨21, _⟩ => ⟨S1024, .f32⟩
  | .hbm, ⟨22, _⟩ => ⟨S_, .f32⟩
  | .hbm, ⟨23, _⟩ => ⟨S1024, .f32⟩
  | .hbm, ⟨24, _⟩ => ⟨S1024, .i1⟩
  | .hbm, ⟨25, _⟩ => ⟨S1024x1, .f32⟩
  | .hbm, ⟨26, _⟩ => ⟨S1024, .f32⟩
  | .hbm, ⟨27, _⟩ => ⟨S_, .f32⟩
  | .hbm, ⟨28, _⟩ => ⟨S1024, .f32⟩
  | .hbm, ⟨29, _⟩ => ⟨S1024, .f32⟩
  | .hbm, ⟨30, _⟩ => ⟨S1024x1, .f32⟩
  | .hbm, ⟨31, _⟩ => ⟨S1024, .f32⟩
  | .hbm, ⟨32, _⟩ => ⟨S1024, .f32⟩
  | .hbm, ⟨33, _⟩ => ⟨S1024x1, .f32⟩
  | .hbm, ⟨34, _⟩ => ⟨S1024, .f32⟩
  | .hbm, ⟨35, _⟩ => ⟨S_, .f32⟩
  | .hbm, ⟨36, _⟩ => ⟨S1024, .f32⟩
  | .hbm, ⟨37, _⟩ => ⟨S1024, .i1⟩
  | .hbm, ⟨38, _⟩ => ⟨S1024x1, .f32⟩
  | .hbm, ⟨39, _⟩ => ⟨S1024, .f32⟩
  | .hbm, ⟨40, _⟩ => ⟨S_, .f32⟩
  | .hbm, ⟨41, _⟩ => ⟨S1024, .f32⟩
  | .hbm, ⟨42, _⟩ => ⟨S1024, .f32⟩
  | .hbm, ⟨43, _⟩ => ⟨S1024x1, .f32⟩
  | .hbm, ⟨44, _⟩ => ⟨S1024, .f32⟩
  | .hbm, ⟨45, _⟩ => ⟨S1024, .f32⟩
  | .hbm, ⟨46, _⟩ => ⟨S1024, .f32⟩
  | .hbm, ⟨47, _⟩ => ⟨S1024, .f32⟩
  | .hbm, ⟨48, _⟩ => ⟨S_, .f32⟩
  | .hbm, ⟨49, _⟩ => ⟨S1024, .f32⟩
  | .hbm, ⟨50, _⟩ => ⟨S1024, .i1⟩
  | .hbm, ⟨51, _⟩ => ⟨S_, .f32⟩
  | .hbm, ⟨52, _⟩ => ⟨S1024, .f32⟩
  | .hbm, ⟨53, _⟩ => ⟨S1024, .f32⟩
  | .hbm, ⟨54, _⟩ => ⟨S1024, .f32⟩
  | .hbm, ⟨55, _⟩ => ⟨S1024, .f32⟩
  | .hbm, ⟨56, _⟩ => ⟨S_, .f32⟩
  | .hbm, ⟨57, _⟩ => ⟨S1024, .f32⟩
  | .hbm, ⟨58, _⟩ => ⟨S1024, .f32⟩
  | .hbm, ⟨59, _⟩ => ⟨S_, .f32⟩
  | .hbm, ⟨60, _⟩ => ⟨S1024, .f32⟩
  | .hbm, ⟨61, _⟩ => ⟨S1024, .f32⟩
  | .hbm, ⟨62, _⟩ => ⟨S1024, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S1024, .f32⟩
  | .hbm, ⟨67, _⟩ => ⟨S1024, .f32⟩
  | .hbm, ⟨68, _⟩ => ⟨S_, .f32⟩
  | .hbm, ⟨69, _⟩ => ⟨S1024, .f32⟩
  | .hbm, ⟨70, _⟩ => ⟨S1024, .f32⟩
  | .hbm, ⟨71, _⟩ => ⟨S1024, .f32⟩
  | .hbm, ⟨72, _⟩ => ⟨S1024, .f32⟩
  | .hbm, ⟨73, _⟩ => ⟨S_, .f32⟩
  | .hbm, ⟨74, _⟩ => ⟨S1024, .f32⟩
  | .hbm, ⟨75, _⟩ => ⟨S1024, .i1⟩
  | .hbm, ⟨76, _⟩ => ⟨S_, .f32⟩
  | .hbm, ⟨77, _⟩ => ⟨S1024, .f32⟩
  | .hbm, ⟨78, _⟩ => ⟨S1024, .f32⟩
  | .hbm, ⟨79, _⟩ => ⟨S1024, .f32⟩
  | .hbm, ⟨80, _⟩ => ⟨S_, .f32⟩
  | .hbm, ⟨81, _⟩ => ⟨S1024, .f32⟩
  | .hbm, ⟨82, _⟩ => ⟨S1024, .i1⟩
  | .hbm, ⟨83, _⟩ => ⟨S_, .f32⟩
  | .hbm, ⟨84, _⟩ => ⟨S1024, .f32⟩
  | .hbm, ⟨85, _⟩ => ⟨S1024, .f32⟩
  | .hbm, ⟨86, _⟩ => ⟨S1024, .f32⟩
  | .hbm, ⟨87, _⟩ => ⟨S131072x1, .f32⟩
  | .hbm, ⟨88, _⟩ => ⟨S131072, .f32⟩
  | .hbm, ⟨89, _⟩ => ⟨S131072x1, .f32⟩
  | .hbm, ⟨90, _⟩ => ⟨S131072, .f32⟩
  | .hbm, ⟨91, _⟩ => ⟨S_, .f32⟩
  | .hbm, ⟨92, _⟩ => ⟨S131072, .f32⟩
  | .hbm, ⟨93, _⟩ => ⟨S131072, .i1⟩
  | .hbm, ⟨94, _⟩ => ⟨S131072x1, .f32⟩
  | .hbm, ⟨95, _⟩ => ⟨S131072, .f32⟩
  | .hbm, ⟨96, _⟩ => ⟨S_, .f32⟩
  | .hbm, ⟨97, _⟩ => ⟨S131072, .f32⟩
  | .hbm, ⟨98, _⟩ => ⟨S131072, .f32⟩
  | .hbm, ⟨99, _⟩ => ⟨S131072x1, .f32⟩
  | .hbm, ⟨100, _⟩ => ⟨S131072, .f32⟩
  | .hbm, ⟨101, _⟩ => ⟨S131072, .f32⟩
  | .hbm, ⟨102, _⟩ => ⟨S131072x1, .f32⟩
  | .hbm, ⟨103, _⟩ => ⟨S131072x1, .f32⟩
  | .hbm, ⟨104, _⟩ => ⟨S1x1024, .f32⟩
  | .hbm, ⟨105, _⟩ => ⟨S1x1024, .f32⟩
  | .hbm, ⟨106, _⟩ => ⟨S1x1024, .f32⟩
  | .hbm, ⟨107, _⟩ => ⟨S1x1024, .f32⟩
  | .hbm, ⟨108, _⟩ => ⟨S131072x1024, .i32⟩
  | .hbm, ⟨109, _⟩ => ⟨S_, .i32⟩
  | .hbm, ⟨110, _⟩ => ⟨S131072x1024, .i32⟩
  | .hbm, ⟨111, _⟩ => ⟨S131072x1024, .i1⟩
  | .hbm, ⟨112, _⟩ => ⟨S131072x1024, .i1⟩
  | .local _ .vmem, ⟨0, _⟩ => ⟨S4096x1, .f32⟩
  | .local _ .vmem, ⟨1, _⟩ => ⟨S4096x1, .f32⟩
  | .local _ .vmem, ⟨2, _⟩ => ⟨S4096x1, .f32⟩
  | .local _ .vmem, ⟨3, _⟩ => ⟨S4096x1, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S4096x1024, .i32⟩
  | .local _ .vmem, ⟨9, _⟩ => ⟨S4096x1024, .i32⟩
  | _, _ => ⟨S131072x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_3 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_cst_4 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_cst_5 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_cst_6 : Ref sig .tc := ⟨.hbm, 48, rfl⟩
abbrev main_v39 : Ref sig .tc := ⟨.hbm, 49, rfl⟩
abbrev main_v40 : Ref sig .tc := ⟨.hbm, 50, rfl⟩
abbrev main_cst_7 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_cst_8 : Ref sig .tc := ⟨.hbm, 56, rfl⟩
abbrev main_v45 : Ref sig .tc := ⟨.hbm, 57, rfl⟩
abbrev main_v46 : Ref sig .tc := ⟨.hbm, 58, rfl⟩
abbrev main_cst_9 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_cst_10 : Ref sig .tc := ⟨.hbm, 63, rfl⟩
abbrev main_cst_11 : Ref sig .tc := ⟨.hbm, 64, rfl⟩
abbrev main_call3_v0 : Ref sig .tc := ⟨.hbm, 65, rfl⟩
abbrev main_call3_v1 : Ref sig .tc := ⟨.hbm, 66, rfl⟩
abbrev main_call3_v2 : Ref sig .tc := ⟨.hbm, 67, rfl⟩
abbrev main_call3_v3 : Ref sig .tc := ⟨.hbm, 68, rfl⟩
abbrev main_call3_v4 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_12 : Ref sig .tc := ⟨.hbm, 73, rfl⟩
abbrev main_v53 : Ref sig .tc := ⟨.hbm, 74, rfl⟩
abbrev main_v54 : Ref sig .tc := ⟨.hbm, 75, rfl⟩
abbrev main_cst_13 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_14 : Ref sig .tc := ⟨.hbm, 80, rfl⟩
abbrev main_v58 : Ref sig .tc := ⟨.hbm, 81, rfl⟩
abbrev main_v59 : Ref sig .tc := ⟨.hbm, 82, rfl⟩
abbrev main_cst_15 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_cst_16 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_cst_17 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_c : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4096x1024 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S1024x4_S1024x1_0_0 : S1024x4.Slices ![0, 0] S1024x1
  shapeCasts_S1024x1_S1024 : S1024x1.ShapeCasts S1024
  slices_S1024x4_S1024x1_0_1 : S1024x4.Slices ![0, 1] S1024x1
  bcast_S_S1024 : S_.BroadcastsInDim S1024 (![] : Fin 0 → Fin S1024.rank)
  slices_S1024x4_S1024x1_0_2 : S1024x4.Slices ![0, 2] S1024x1
  slices_S1024x4_S1024x1_0_3 : S1024x4.Slices ![0, 3] S1024x1
  slices_S131072x2_S131072x1_0_0 : S131072x2.Slices ![0, 0] S131072x1
  shapeCasts_S131072x1_S131072 : S131072x1.ShapeCasts S131072
  slices_S131072x2_S131072x1_0_1 : S131072x2.Slices ![0, 1] S131072x1
  bcast_S_S131072 : S_.BroadcastsInDim S131072 (![] : Fin 0 → Fin S131072.rank)
  shapeCasts_S131072_S131072x1 : S131072.ShapeCasts S131072x1
  shapeCasts_S1024_S1x1024 : S1024.ShapeCasts S1x1024
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S4096x1_S4096x1024 : S4096x1.Broadcasts S4096x1024
  broadcasts_S1x1024_S4096x1024 : S1x1024.Broadcasts S4096x1024
  inb_S4096x1024_S4096x1024_0_0 : ∀ a, (![0, 0] : Fin 2 → Nat) a + S4096x1024.size a ≤ S4096x1024.size a
  h_S4096x1024 : 0 < S4096x1024.numel
  natLt_1_32 : 1 < 32
  bcast_S_S131072x1024 : S_.BroadcastsInDim S131072x1024 (![] : Fin 0 → Fin S131072x1024.rank)
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x1.size a ≤ S131072x1.size a
  hwx0_0 : ∀ i : grid0.Coords, EltTy.bits .f32 = 32 ∨ (Rect.block (s := S131072x1) S4096x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x1.size a ≤ S131072x1.size a
  hwx0_1 : ∀ i : grid0.Coords, EltTy.bits .f32 = 32 ∨ (Rect.block (s := S131072x1) S4096x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4096x1024.size a ≤ S131072x1024.size a
  hwx0_6 : ∀ i : grid0.Coords, EltTy.bits .i32 = 32 ∨ (Rect.block (s := S131072x1024) S4096x1024.size (cc0_transform_6 i) (hinb0_6 i)).WholeWords (EltTy.packing .i32)

variable [Facts₀]

abbrev win0_0 : Pipeline.Window sig grid0 :=
  Pipeline.Window.ofSpec (Memref.whole main_v76) S4096x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v77) S4096x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v78) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v79) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v80) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v81) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v82) S4096x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S131072x2 : Shape := ⟨2, ![131072, 2]⟩
abbrev S1024x4 : Shape := ⟨2, ![1024, 4]⟩
abbrev S1024x1 : Shape := ⟨2, ![1024, 1]⟩
abbrev S1024 : Shape := ⟨1, ![1024]⟩
abbrev S_ : Shape := ⟨0, ![]⟩
abbrev S131072x1 : Shape := ⟨2, ![131072, 1]⟩
abbrev S131072 : Shape := ⟨1, ![131072]⟩
abbrev S1x1024 : Shape := ⟨2, ![1, 1024]⟩
abbrev S131072x1024 : Shape := ⟨2, ![131072, 1024]⟩

abbrev nBuf : Space → Nat
  | .hbm => 123
  | .vmem => 0
  | .smem => 0
  | _ => 0

abbrev bufTy : (tb : Table) → Fin (tcTables nBuf tb) → BufTy
  | .hbm, ⟨0, _⟩ => ⟨S131072x2, .f32⟩
  | .hbm, ⟨1, _⟩ => ⟨S1024x4, .f32⟩
  | .hbm, ⟨2, _⟩ => ⟨S1024x1, .f32⟩
  | .hbm, ⟨3, _⟩ => ⟨S1024, .f32⟩
  | .hbm, ⟨4, _⟩ => ⟨S1024x1, .f32⟩
  | .hbm, ⟨5, _⟩ => ⟨S1024, .f32⟩
  | .hbm, ⟨6, _⟩ => ⟨S1024, .f32⟩
  | .hbm, ⟨7, _⟩ => ⟨S_, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S1024, .f32⟩
  | .hbm, ⟨12, _⟩ => ⟨S_, .f32⟩
  | .hbm, ⟨13, _⟩ => ⟨S1024, .f32⟩
  | .hbm, ⟨14, _⟩ => ⟨S1024, .f32⟩
  | .hbm, ⟨15, _⟩ => ⟨S_, .f32⟩
  | .hbm, ⟨16, _⟩ => ⟨S1024, .f32⟩
  | .hbm, ⟨17, _⟩ => ⟨S1024, .f32⟩
  | .hbm, ⟨18, _⟩ => ⟨S1024, .f32⟩
  | .hbm, ⟨19, _⟩ => ⟨S1024, .f32⟩
  | .hbm, ⟨20, _⟩ => ⟨S1024x1, .f32⟩
  | .hbm, ⟨21, _⟩ => ⟨S1024, .f32⟩
  | .hbm, ⟨22, _⟩ => ⟨S_, .f32⟩
  | .hbm, ⟨23, _⟩ => ⟨S1024, .f32⟩
  | .hbm, ⟨24, _⟩ => ⟨S1024, .i1⟩
  | .hbm, ⟨25, _⟩ => ⟨S1024x1, .f32⟩
  | .hbm, ⟨26, _⟩ => ⟨S1024, .f32⟩
  | .hbm, ⟨27, _⟩ => ⟨S_, .f32⟩
  | .hbm, ⟨28, _⟩ => ⟨S1024, .f32⟩
  | .hbm, ⟨29, _⟩ => ⟨S1024, .f32⟩
  | .hbm, ⟨30, _⟩ => ⟨S1024x1, .f32⟩
  | .hbm, ⟨31, _⟩ => ⟨S1024, .f32⟩
  | .hbm, ⟨32, _⟩ => ⟨S1024, .f32⟩
  | .hbm, ⟨33, _⟩ => ⟨S1024x1, .f32⟩
  | .hbm, ⟨34, _⟩ => ⟨S1024, .f32⟩
  | .hbm, ⟨35, _⟩ => ⟨S_, .f32⟩
  | .hbm, ⟨36, _⟩ => ⟨S1024, .f32⟩
  | .hbm, ⟨37, _⟩ => ⟨S1024, .i1⟩
  | .hbm, ⟨38, _⟩ => ⟨S1024x1, .f32⟩
  | .hbm, ⟨39, _⟩ => ⟨S1024, .f32⟩
  | .hbm, ⟨40, _⟩ => ⟨S_, .f32⟩
  | .hbm, ⟨41, _⟩ => ⟨S1024, .f32⟩
  | .hbm, ⟨42, _⟩ => ⟨S1024, .f32⟩
  | .hbm, ⟨43, _⟩ => ⟨S1024x1, .f32⟩
  | .hbm, ⟨44, _⟩ => ⟨S1024, .f32⟩
  | .hbm, ⟨45, _⟩ => ⟨S1024, .f32⟩
  | .hbm, ⟨46, _⟩ => ⟨S1024, .f32⟩
  | .hbm, ⟨47, _⟩ => ⟨S1024, .f32⟩
  | .hbm, ⟨48, _⟩ => ⟨S_, .f32⟩
  | .hbm, ⟨49, _⟩ => ⟨S1024, .f32⟩
  | .hbm, ⟨50, _⟩ => ⟨S1024, .i1⟩
  | .hbm, ⟨51, _⟩ => ⟨S_, .f32⟩
  | .hbm, ⟨52, _⟩ => ⟨S1024, .f32⟩
  | .hbm, ⟨53, _⟩ => ⟨S1024, .f32⟩
  | .hbm, ⟨54, _⟩ => ⟨S1024, .f32⟩
  | .hbm, ⟨55, _⟩ => ⟨S1024, .f32⟩
  | .hbm, ⟨56, _⟩ => ⟨S_, .f32⟩
  | .hbm, ⟨57, _⟩ => ⟨S1024, .f32⟩
  | .hbm, ⟨58, _⟩ => ⟨S1024, .f32⟩
  | .hbm, ⟨59, _⟩ => ⟨S_, .f32⟩
  | .hbm, ⟨60, _⟩ => ⟨S1024, .f32⟩
  | .hbm, ⟨61, _⟩ => ⟨S1024, .f32⟩
  | .hbm, ⟨62, _⟩ => ⟨S1024, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S1024, .f32⟩
  | .hbm, ⟨67, _⟩ => ⟨S1024, .f32⟩
  | .hbm, ⟨68, _⟩ => ⟨S_, .f32⟩
  | .hbm, ⟨69, _⟩ => ⟨S1024, .f32⟩
  | .hbm, ⟨70, _⟩ => ⟨S1024, .f32⟩
  | .hbm, ⟨71, _⟩ => ⟨S1024, .f32⟩
  | .hbm, ⟨72, _⟩ => ⟨S1024, .f32⟩
  | .hbm, ⟨73, _⟩ => ⟨S_, .f32⟩
  | .hbm, ⟨74, _⟩ => ⟨S1024, .f32⟩
  | .hbm, ⟨75, _⟩ => ⟨S1024, .i1⟩
  | .hbm, ⟨76, _⟩ => ⟨S_, .f32⟩
  | .hbm, ⟨77, _⟩ => ⟨S1024, .f32⟩
  | .hbm, ⟨78, _⟩ => ⟨S1024, .f32⟩
  | .hbm, ⟨79, _⟩ => ⟨S1024, .f32⟩
  | .hbm, ⟨80, _⟩ => ⟨S_, .f32⟩
  | .hbm, ⟨81, _⟩ => ⟨S1024, .f32⟩
  | .hbm, ⟨82, _⟩ => ⟨S1024, .i1⟩
  | .hbm, ⟨83, _⟩ => ⟨S_, .f32⟩
  | .hbm, ⟨84, _⟩ => ⟨S1024, .f32⟩
  | .hbm, ⟨85, _⟩ => ⟨S1024, .f32⟩
  | .hbm, ⟨86, _⟩ => ⟨S1024, .f32⟩
  | .hbm, ⟨87, _⟩ => ⟨S131072x1, .f32⟩
  | .hbm, ⟨88, _⟩ => ⟨S131072, .f32⟩
  | .hbm, ⟨89, _⟩ => ⟨S131072x1, .f32⟩
  | .hbm, ⟨90, _⟩ => ⟨S131072x1, .f32⟩
  | .hbm, ⟨91, _⟩ => ⟨S131072, .f32⟩
  | .hbm, ⟨92, _⟩ => ⟨S_, .f32⟩
  | .hbm, ⟨93, _⟩ => ⟨S131072, .f32⟩
  | .hbm, ⟨94, _⟩ => ⟨S131072, .i1⟩
  | .hbm, ⟨95, _⟩ => ⟨S131072x1, .f32⟩
  | .hbm, ⟨96, _⟩ => ⟨S131072, .f32⟩
  | .hbm, ⟨97, _⟩ => ⟨S_, .f32⟩
  | .hbm, ⟨98, _⟩ => ⟨S131072, .f32⟩
  | .hbm, ⟨99, _⟩ => ⟨S131072, .f32⟩
  | .hbm, ⟨100, _⟩ => ⟨S131072x1, .f32⟩
  | .hbm, ⟨101, _⟩ => ⟨S131072, .f32⟩
  | .hbm, ⟨102, _⟩ => ⟨S131072, .f32⟩
  | .hbm, ⟨103, _⟩ => ⟨S131072x1, .f32⟩
  | .hbm, ⟨104, _⟩ => ⟨S1x1024, .f32⟩
  | .hbm, ⟨105, _⟩ => ⟨S131072x1024, .f32⟩
  | .hbm, ⟨106, _⟩ => ⟨S131072x1024, .f32⟩
  | .hbm, ⟨107, _⟩ => ⟨S131072x1024, .i1⟩
  | .hbm, ⟨108, _⟩ => ⟨S1x1024, .f32⟩
  | .hbm, ⟨109, _⟩ => ⟨S131072x1024, .f32⟩
  | .hbm, ⟨110, _⟩ => ⟨S131072x1024, .f32⟩
  | .hbm, ⟨111, _⟩ => ⟨S131072x1024, .i1⟩
  | .hbm, ⟨112, _⟩ => ⟨S131072x1024, .i1⟩
  | .hbm, ⟨113, _⟩ => ⟨S1x1024, .f32⟩
  | .hbm, ⟨114, _⟩ => ⟨S131072x1024, .f32⟩
  | .hbm, ⟨115, _⟩ => ⟨S131072x1024, .f32⟩
  | .hbm, ⟨116, _⟩ => ⟨S131072x1024, .i1⟩
  | .hbm, ⟨117, _⟩ => ⟨S131072x1024, .i1⟩
  | .hbm, ⟨118, _⟩ => ⟨S1x1024, .f32⟩
  | .hbm, ⟨119, _⟩ => ⟨S131072x1024, .f32⟩
  | .hbm, ⟨120, _⟩ => ⟨S131072x1024, .f32⟩
  | .hbm, ⟨121, _⟩ => ⟨S131072x1024, .i1⟩
  | .hbm, ⟨122, _⟩ => ⟨S131072x1024, .i1⟩
  | _, _ => ⟨S131072x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_3 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_cst_4 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_cst_5 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_cst_6 : Ref sig .tc := ⟨.hbm, 48, rfl⟩
abbrev main_v39 : Ref sig .tc := ⟨.hbm, 49, rfl⟩
abbrev main_v40 : Ref sig .tc := ⟨.hbm, 50, rfl⟩
abbrev main_cst_7 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_cst_8 : Ref sig .tc := ⟨.hbm, 56, rfl⟩
abbrev main_v45 : Ref sig .tc := ⟨.hbm, 57, rfl⟩
abbrev main_v46 : Ref sig .tc := ⟨.hbm, 58, rfl⟩
abbrev main_cst_9 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_cst_10 : Ref sig .tc := ⟨.hbm, 63, rfl⟩
abbrev main_cst_11 : Ref sig .tc := ⟨.hbm, 64, rfl⟩
abbrev main_call3_v0 : Ref sig .tc := ⟨.hbm, 65, rfl⟩
abbrev main_call3_v1 : Ref sig .tc := ⟨.hbm, 66, rfl⟩
abbrev main_call3_v2 : Ref sig .tc := ⟨.hbm, 67, rfl⟩
abbrev main_call3_v3 : Ref sig .tc := ⟨.hbm, 68, rfl⟩
abbrev main_call3_v4 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_12 : Ref sig .tc := ⟨.hbm, 73, rfl⟩
abbrev main_v53 : Ref sig .tc := ⟨.hbm, 74, rfl⟩
abbrev main_v54 : Ref sig .tc := ⟨.hbm, 75, rfl⟩
abbrev main_cst_13 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_14 : Ref sig .tc := ⟨.hbm, 80, rfl⟩
abbrev main_v58 : Ref sig .tc := ⟨.hbm, 81, rfl⟩
abbrev main_v59 : Ref sig .tc := ⟨.hbm, 82, rfl⟩
abbrev main_cst_15 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_cst_16 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_cst_17 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩

abbrev nD : Nat := 1
abbrev τ : Topo := Topo.v7x

variable {F : FTy → Type} [FloatOps F]

class Facts₀ : Prop where
  slices_S1024x4_S1024x1_0_0 : S1024x4.Slices ![0, 0] S1024x1
  shapeCasts_S1024x1_S1024 : S1024x1.ShapeCasts S1024
  slices_S1024x4_S1024x1_0_1 : S1024x4.Slices ![0, 1] S1024x1
  bcast_S_S1024 : S_.BroadcastsInDim S1024 (![] : Fin 0 → Fin S1024.rank)
  slices_S1024x4_S1024x1_0_2 : S1024x4.Slices ![0, 2] S1024x1
  slices_S1024x4_S1024x1_0_3 : S1024x4.Slices ![0, 3] S1024x1
  slices_S131072x2_S131072x1_0_0 : S131072x2.Slices ![0, 0] S131072x1
  shapeCasts_S131072x1_S131072 : S131072x1.ShapeCasts S131072
  bcast_S131072_S131072x1_0 : S131072.BroadcastsInDim S131072x1 (![0] : Fin 1 → Fin S131072x1.rank)
  slices_S131072x2_S131072x1_0_1 : S131072x2.Slices ![0, 1] S131072x1
  bcast_S_S131072 : S_.BroadcastsInDim S131072 (![] : Fin 0 → Fin S131072.rank)
  bcast_S1024_S1x1024_1 : S1024.BroadcastsInDim S1x1024 (![1] : Fin 1 → Fin S1x1024.rank)
  bcast_S131072x1_S131072x1024_0_1 : S131072x1.BroadcastsInDim S131072x1024 (![0, 1] : Fin 2 → Fin S131072x1024.rank)
  bcast_S1x1024_S131072x1024_0_1 : S1x1024.BroadcastsInDim S131072x1024 (![0, 1] : Fin 2 → Fin S131072x1024.rank)

variable [Facts₀]

class Facts : Prop extends Facts₀ where

variable [Facts]
-- ==== Proof.MaskSpec.lean ====
/-
  The point-box association mask, as one function of six gate vectors.

  A point `p` with range `r` and (wrapped) azimuth `a` is associated with box `b` when
  `r_low b < r < r_upper b` and `angle_min b < a < angle_max b`: four strict float comparisons joined
  by `and`. `gate` is that predicate on one point and one box as a one-bit word, `mask` the whole
  [131072, 1024] array of gates, entry `(p, b)` reading the point vectors at `p` and the box vectors at
  `b`. Both programs compute `mask` of the same six vectors; they differ only in how the vectors are
  laid out — the kernel reads the point vectors as [131072, 1] columns and the box vectors as [1, 1024]
  rows (`mask2`, and `mask2_cast`: over the columns and rows cast from the vectors it is `mask`) — and in
  that the kernel stores the bit widened to 32 bits and the host reads it back by `≠ 0`
  (`ne_zero_widened`).
-/
import Idealize.ShloMosaic.PureOps
import Idealize.ShloMosaic.Lib.ValueIdx
import Idealize.ShloMosaic.Lib.Pipeline.Value

noncomputable section

namespace Cert.MaskSpec

open Idealize.ShloMosaic Idealize.ShloMosaic.ValueIdx

/-- The points' axis, the boxes' axis, the column and row shapes, and the mask's shape. -/
abbrev SP : Shape := ⟨1, ![131072]⟩
abbrev SB : Shape := ⟨1, ![1024]⟩
abbrev SPc : Shape := ⟨2, ![131072, 1]⟩
abbrev SBr : Shape := ⟨2, ![1, 1024]⟩
abbrev SPB : Shape := ⟨2, ![131072, 1024]⟩

variable {F : FTy → Type} [FloatOps F]

/-- One point against one box: `r < hi ∧ r > lo ∧ a > alo ∧ a < ahi`, as a bit, associated as both
    programs associate it. -/
def gate (r a lo hi alo ahi : F .f32) : BitVec 1 :=
  IntOp.andi (IntOp.andi (IntOp.andi (FloatOps.cmpf .olt r hi) (FloatOps.cmpf .ogt r lo)) (FloatOps.cmpf .ogt a alo))
    (FloatOps.cmpf .olt a ahi)

/-- The mask: entry `(p, b)` gates point `p` against box `b`. -/
def mask (pr pa : SP.Idx → F .f32) (rlow rup amin amax : SB.Idx → F .f32) : SPB.Idx → BitVec 1 :=
  fun i => gate (pr (ix1 (i 0))) (pa (ix1 (i 0))) (rlow (ix1 (i 1))) (rup (ix1 (i 1))) (amin (ix1 (i 1))) (amax (ix1 (i 1)))

/-- The same over point COLUMNS and box ROWS: entry `(p, b)` reads the columns at `(p, 0)` and the rows at `(0, b)`. -/
def mask2 (pr pa : SPc.Idx → F .f32) (rlow rup amin amax : SBr.Idx → F .f32) : SPB.Idx → BitVec 1 :=
  fun i => gate (pr (ix2 (i 0) 0)) (pa (ix2 (i 0) 0)) (rlow (ix2 0 (i 1))) (rup (ix2 0 (i 1))) (amin (ix2 0 (i 1))) (amax (ix2 0 (i 1)))

/-- A vector cast to a column, read at row `p`, is the vector at `p`. -/
theorem column_cast_apply {α : Type} (v : SP.Idx → α) (h : SP.ShapeCasts SPc) (p : Fin 131072) :
    shapeCast SPc v h (ix2 p 0) = v (ix1 p) :=
  shapeCast_apply v h (ix2 p 0) (ix1 p) (by
    rw [Shape.rowMajor_val_one, Shape.rowMajor_val_two]
    show p.val = p.val * 1 + 0
    omega)

/-- A vector cast to a row, read at column `b`, is the vector at `b`. -/
theorem row_cast_apply {α : Type} (v : SB.Idx → α) (h : SB.ShapeCasts SBr) (b : Fin 1024) :
    shapeCast SBr v h (ix2 0 b) = v (ix1 b) :=
  shapeCast_apply v h (ix2 0 b) (ix1 b) (by
    rw [Shape.rowMajor_val_one, Shape.rowMajor_val_two]
    show b.val = 0 * 1024 + b.val
    omega)

/-- The mask over the columns and rows cast from six vectors is the mask of the vectors. -/
theorem mask2_cast (pr pa : SP.Idx → F .f32) (rlow rup amin amax : SB.Idx → F .f32)
    (hc : SP.ShapeCasts SPc) (hr : SB.ShapeCasts SBr) :
    mask2 (shapeCast SPc pr hc) (shapeCast SPc pa hc) (shapeCast SBr rlow hr) (shapeCast SBr rup hr)
      (shapeCast SBr amin hr) (shapeCast SBr amax hr) = mask pr pa rlow rup amin amax := by
  funext i
  obtain ⟨p, b, rfl⟩ : ∃ (p : Fin 131072) (b : Fin 1024), i = ix2 p b := ⟨i 0, i 1, eq_ix2 i⟩
  show gate (shapeCast SPc pr hc (ix2 p 0)) (shapeCast SPc pa hc (ix2 p 0)) (shapeCast SBr rlow hr (ix2 0 b))
      (shapeCast SBr rup hr (ix2 0 b)) (shapeCast SBr amin hr (ix2 0 b)) (shapeCast SBr amax hr (ix2 0 b))
    = gate (pr (ix1 p)) (pa (ix1 p)) (rlow (ix1 b)) (rup (ix1 b)) (amin (ix1 b)) (amax (ix1 b))
  rw [column_cast_apply, column_cast_apply, row_cast_apply, row_cast_apply, row_cast_apply, row_cast_apply]

/-- A bit zero-extended to 32 bits is nonzero exactly when the bit is set: comparing the widened word
    with zero gives the bit back. -/
theorem ne_zero_widened (x : BitVec 1) : IntOp.cmpi .ne (x.setWidth 32) 0#32 = x := by
  have h : ∀ y : BitVec 1, IntOp.cmpi .ne (y.setWidth 32) 0#32 = y := by decide
  exact h x

end Cert.MaskSpec

end
-- ==== Proof.KernelMask.lean ====
/-
  What the kernel's run leaves in its result, read off the generated frame run.

  The pallas_call has a grid of 32 points; point `t` is given rows `4096 t … 4096 t + 4095` of the two
  point columns (range, wrapped azimuth: [131072, 1] arrays) and the whole of the four box rows
  (r_low, r_upper, angle_min, angle_max: [1, 1024] arrays), and stores the [4096, 1024] block of gates,
  each widened to a 32-bit word, as rows `4096 t …` of a [131072, 1024] array. So the array after the
  region is the gate of row `p` of the columns against column `b` of the rows, widened, at every
  `(p, b)` (`final`): the 32 blocks tile the array. The host lines after the region compare that array
  with zero, which gives the gate bit back (`MaskSpec.ne_zero_widened`), so the result is
  `MaskSpec.mask2` of the six arrays as the region finds them (`run`).
-/
import proofs.«409097_j84550726189430_3_alg».proof.Proof.Gen.KernelIdeal.Frame
import proofs.«409097_j84550726189430_3_alg».proof.Proof.MaskSpec
import Idealize.ShloMosaic.Lib.Pipeline.Value
import Idealize.ShloMosaic.Lib.ValueIdx
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.MaskValue

open Cert.KernelIdeal Cert.KernelIdeal.Gen Cert.MaskSpec

variable {F : FTy → Type} [FloatOps F]
variable (m : (ℓ : Loc nD τ sig) → Buf (Elt F) ℓ) (ρ : Dev nD → PrngReg)

theorem hz : (![0, 0] : Fin 2 → Nat) = fun _ => 0 := funext fun a => by fin_cases a <;> rfl

/-! ## The body's stored block at an index -/

/-- A [4096, 1] column broadcast along the lanes reads, at `(p, b)`, the column at `(p, 0)`. -/
theorem column_bcast (x : Vec F S4096x1 .f32) (p : Fin 4096) (b : Fin 1024) :
    broadcastTo S4096x1024 x broadcasts_S4096x1_S4096x1024 (ix2 p b) = x (ix2 p 0) :=
  broadcastTo_apply x _ (ix2 p b) (ix2 p 0) fun a => match a with
    | ⟨0, _⟩ => rfl
    | ⟨1, _⟩ => rfl

/-- A [1, 1024] row broadcast along the sublanes reads, at `(p, b)`, the row at `(0, b)`. -/
theorem row_bcast (x : Vec F S1x1024 .f32) (p : Fin 4096) (b : Fin 1024) :
    broadcastTo S4096x1024 x broadcasts_S1x1024_S4096x1024 (ix2 p b) = x (ix2 0 b) :=
  broadcastTo_apply x _ (ix2 p b) (ix2 0 b) fun a => match a with
    | ⟨0, _⟩ => rfl
    | ⟨1, _⟩ => rfl

/-- The stored block at `(p, b)`: the gate of row `p` of the two point blocks against column `b` of the
    four box blocks, zero-extended to 32 bits. -/
theorem pay_apply (x0 x1 : Vec F S4096x1 .f32) (x2 x3 x4 x5 : Vec F S1x1024 .f32) (p : Fin 4096) (b : Fin 1024) :
    k0_pay1 x0 x1 x2 x3 x4 x5 (ix2 p b)
      = (gate (x0 (ix2 p 0)) (x1 (ix2 p 0)) (x2 (ix2 0 b)) (x3 (ix2 0 b)) (x4 (ix2 0 b)) (x5 (ix2 0 b))).setWidth 32 := by
  unfold k0_pay1
  simp only [shapeCast_self]
  show (IntOp.andi (IntOp.andi (IntOp.andi
      (FloatOps.cmpf .olt (broadcastTo S4096x1024 x0 broadcasts_S4096x1_S4096x1024 (ix2 p b)) (broadcastTo S4096x1024 x3 broadcasts_S1x1024_S4096x1024 (ix2 p b)))
      (FloatOps.cmpf .ogt (broadcastTo S4096x1024 x0 broadcasts_S4096x1_S4096x1024 (ix2 p b)) (broadcastTo S4096x1024 x2 broadcasts_S1x1024_S4096x1024 (ix2 p b))))
      (FloatOps.cmpf .ogt (broadcastTo S4096x1024 x1 broadcasts_S4096x1_S4096x1024 (ix2 p b)) (broadcastTo S4096x1024 x4 broadcasts_S1x1024_S4096x1024 (ix2 p b))))
      (FloatOps.cmpf .olt (broadcastTo S4096x1024 x1 broadcasts_S4096x1_S4096x1024 (ix2 p b)) (broadcastTo S4096x1024 x5 broadcasts_S1x1024_S4096x1024 (ix2 p b)))).setWidth 32 = _
  rw [column_bcast, column_bcast, row_bcast, row_bcast, row_bcast, row_bcast]
  rfl

/-! ## The region's arrays and the array it leaves -/

/-- The six arrays the region reads, as it finds them, at their literal types: the points' range and wrapped
    azimuth as columns, the boxes' four gate parameters as rows. -/
abbrev prCol (c : Dev nD) : Vec F S131072x1 .f32 := V m c main_v76
abbrev paCol (c : Dev nD) : Vec F S131072x1 .f32 := V m c main_v77
abbrev rlowRow (c : Dev nD) : Vec F S1x1024 .f32 := V m c main_v78
abbrev rupRow (c : Dev nD) : Vec F S1x1024 .f32 := V m c main_v79
abbrev aminRow (c : Dev nD) : Vec F S1x1024 .f32 := V m c main_v80
abbrev amaxRow (c : Dev nD) : Vec F S1x1024 .f32 := V m c main_v81

/-- The gate of every point against every box, each bit zero-extended to a 32-bit word. -/
def wide (c : Dev nD) : S131072x1024.Idx → BitVec 32 := fun i =>
  (mask2 (prCol m c) (paCol m c) (rlowRow m c) (rupRow m c) (aminRow m c) (amaxRow m c) i).setWidth 32

/-- The index maps, decided over the 32 points: point `t` takes block row `t` of the two point columns and of the
    output, and block (0, 0) of each box row. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

theorem lt_N (t : Fin cfg0.N) : t.val < 32 :=
  lt_of_lt_of_eq t.isLt (show cfg0.N = 32 from N_0)

/-- Row `p` of point `t`'s block of the range column is row `4096 t + p` of the column. -/
theorem blk0_apply (c : Dev nD) (t : Fin cfg0.N) (p : Fin 4096) (q : Fin 131072) (hq : q.val = 4096 * t.val + p.val) :
    (iblk m c 0 t : Vec F S4096x1 .f32) (ix2 p 0) = prCol m c (ix2 q 0) := by
  obtain ⟨e0, e1, -⟩ := idx_facts t
  unfold iblk
  rw [View.read_apply]
  show V m c main_v76 _ = V m c main_v76 _
  congr 1
  funext a
  apply Fin.ext
  match a with
  | ⟨0, _⟩ => show win0_0.index t (0 : Fin 2) * 4096 + 1 * p.val = q.val; rw [e0, hq]; omega
  | ⟨1, _⟩ => show win0_0.index t (1 : Fin 2) * 1 + 1 * 0 = 0; rw [e1]

/-- The same for the azimuth column. -/
theorem blk1_apply (c : Dev nD) (t : Fin cfg0.N) (p : Fin 4096) (q : Fin 131072) (hq : q.val = 4096 * t.val + p.val) :
    (iblk m c 1 t : Vec F S4096x1 .f32) (ix2 p 0) = paCol m c (ix2 q 0) := by
  obtain ⟨-, -, e0, e1, -⟩ := idx_facts t
  unfold iblk
  rw [View.read_apply]
  show V m c main_v77 _ = V m c main_v77 _
  congr 1
  funext a
  apply Fin.ext
  match a with
  | ⟨0, _⟩ => show win0_1.index t (0 : Fin 2) * 4096 + 1 * p.val = q.val; rw [e0, hq]; omega
  | ⟨1, _⟩ => show win0_1.index t (1 : Fin 2) * 1 + 1 * 0 = 0; rw [e1]

/-- Every point's block of a box row is the whole row. -/
theorem blk2_apply (c : Dev nD) (t : Fin cfg0.N) (b : Fin 1024) :
    (iblk m c 2 t : Vec F S1x1024 .f32) (ix2 0 b) = rlowRow m c (ix2 0 b) := by
  obtain ⟨-, -, -, -, e0, e1, -⟩ := idx_facts t
  unfold iblk
  rw [View.read_apply]
  show V m c main_v78 _ = V m c main_v78 _
  congr 1
  funext a
  apply Fin.ext
  match a with
  | ⟨0, _⟩ => show win0_2.index t (0 : Fin 2) * 1 + 1 * 0 = 0; rw [e0]
  | ⟨1, _⟩ => show win0_2.index t (1 : Fin 2) * 1024 + 1 * b.val = b.val; rw [e1]; omega

theorem blk3_apply (c : Dev nD) (t : Fin cfg0.N) (b : Fin 1024) :
    (iblk m c 3 t : Vec F S1x1024 .f32) (ix2 0 b) = rupRow m c (ix2 0 b) := by
  obtain ⟨-, -, -, -, -, -, e0, e1, -⟩ := idx_facts t
  unfold iblk
  rw [View.read_apply]
  show V m c main_v79 _ = V m c main_v79 _
  congr 1
  funext a
  apply Fin.ext
  match a with
  | ⟨0, _⟩ => show win0_3.index t (0 : Fin 2) * 1 + 1 * 0 = 0; rw [e0]
  | ⟨1, _⟩ => show win0_3.index t (1 : Fin 2) * 1024 + 1 * b.val = b.val; rw [e1]; omega

theorem blk4_apply (c : Dev nD) (t : Fin cfg0.N) (b : Fin 1024) :
    (iblk m c 4 t : Vec F S1x1024 .f32) (ix2 0 b) = aminRow m c (ix2 0 b) := by
  obtain ⟨-, -, -, -, -, -, -, -, e0, e1, -⟩ := idx_facts t
  unfold iblk
  rw [View.read_apply]
  show V m c main_v80 _ = V m c main_v80 _
  congr 1
  funext a
  apply Fin.ext
  match a with
  | ⟨0, _⟩ => show win0_4.index t (0 : Fin 2) * 1 + 1 * 0 = 0; rw [e0]
  | ⟨1, _⟩ => show win0_4.index t (1 : Fin 2) * 1024 + 1 * b.val = b.val; rw [e1]; omega

theorem blk5_apply (c : Dev nD) (t : Fin cfg0.N) (b : Fin 1024) :
    (iblk m c 5 t : Vec F S1x1024 .f32) (ix2 0 b) = amaxRow m c (ix2 0 b) := by
  obtain ⟨-, -, -, -, -, -, -, -, -, -, e0, e1, -⟩ := idx_facts t
  unfold iblk
  rw [View.read_apply]
  show V m c main_v81 _ = V m c main_v81 _
  congr 1
  funext a
  apply Fin.ext
  match a with
  | ⟨0, _⟩ => show win0_5.index t (0 : Fin 2) * 1 + 1 * 0 = 0; rw [e0]
  | ⟨1, _⟩ => show win0_5.index t (1 : Fin 2) * 1024 + 1 * b.val = b.val; rw [e1]; omega

/-- Entry `(p, b)` of point `t`'s output block sits at `(4096 t + p, b)` of the array. -/
theorem out_emb (t : Fin cfg0.N) (p : Fin 4096) (b : Fin 1024) (q : Fin 131072) (hq : q.val = 4096 * t.val + p.val) :
    ((cfg0.win 6).blk t).view.emb (ix2 p b) = (ix2 q b : S131072x1024.Idx) := by
  obtain ⟨-, -, -, -, -, -, -, -, -, -, -, -, e0, e1⟩ := idx_facts t
  funext a
  apply Fin.ext
  match a with
  | ⟨0, _⟩ => show win0_6.index t (0 : Fin 2) * 4096 + 1 * p.val = q.val; rw [e0, hq]; omega
  | ⟨1, _⟩ => show win0_6.index t (1 : Fin 2) * 1024 + 1 * b.val = b.val; rw [e1]; omega

/-- WHAT POINT `t` WRITES BACK is block `t` of the widened mask. -/
theorem flushed_eq (c : Dev nD) (t : Fin cfg0.N) :
    (dats m 0 c).flushed 6 t = ((cfg0.win 6).blk t).view.read (Elt F) (wide m c) := by
  show (cfg0.win 6).cut (grid0.coords t) ((dats m 0 c).after 6 t) = _
  rw [after0_6]
  unfold out0_6
  rw [View.canon_unit_zero hz]
  simp only [View.ld_unit_zero (S := S4096x1) hz, View.ld_unit_zero (S := S1x1024) hz]
  funext j
  obtain ⟨p, b, rfl⟩ : ∃ (p : Fin 4096) (b : Fin 1024), j = ix2 p b := ⟨j 0, j 1, eq_ix2 j⟩
  have ht := lt_N t
  have hp := p.isLt
  let q : Fin 131072 := ⟨4096 * t.val + p.val, by omega⟩
  show k0_pay1 (iblk m c 0 t) (iblk m c 1 t) (iblk m c 2 t) (iblk m c 3 t) (iblk m c 4 t) (iblk m c 5 t) (ix2 p b)
    = wide m c (((cfg0.win 6).blk t).view.emb (ix2 p b))
  rw [pay_apply, blk0_apply m c t p q rfl, blk1_apply m c t p q rfl, blk2_apply, blk3_apply, blk4_apply, blk5_apply,
    out_emb t p b q rfl]
  rfl

/-! ## The blocks tile the array -/

/-- An index of the array is in point `t`'s block iff each coordinate is in the block's range on its axis. -/
theorem mem_blk (t : Fin cfg0.N) (i : S131072x1024.Idx) :
    i ∈ ((cfg0.win 6).blk t).view.set ↔ ∀ a : Fin 2, win0_6.index t a * S4096x1024.size a ≤ (i a).val ∧ (i a).val < win0_6.index t a * S4096x1024.size a + S4096x1024.size a := by
  show i ∈ ((View.whole main_v82).slice (win0_6.rect t)).set ↔ _
  rw [View.set_slice_whole, Rect.mem_set_unit]
  exact Iff.rfl

/-- Row `r` of the array lies in the block of point `r / 4096`, and every point writes its block back. -/
theorem cover (i : S131072x1024.Idx) :
    ∃ t : Fin cfg0.N, (cfg0.win 6).flush t = true ∧ i ∈ ((cfg0.win 6).blk t).view.set := by
  have hi0 : (i 0).val < 131072 := (i 0).isLt
  have hi1 : (i 1).val < 1024 := (i 1).isLt
  have hN : (i 0).val / 4096 < cfg0.N := lt_of_lt_of_eq (show (i 0).val / 4096 < 32 by omega) (show cfg0.N = 32 from N_0).symm
  obtain ⟨-, -, -, -, -, -, -, -, -, -, -, -, e0, e1⟩ := idx_facts ⟨(i 0).val / 4096, hN⟩
  refine ⟨⟨(i 0).val / 4096, hN⟩, flush0_6 _, ?_⟩
  rw [mem_blk]
  intro a
  match a with
  | ⟨0, _⟩ =>
    show win0_6.index ⟨(i 0).val / 4096, hN⟩ (0 : Fin 2) * 4096 ≤ (i 0).val ∧ (i 0).val < win0_6.index ⟨(i 0).val / 4096, hN⟩ (0 : Fin 2) * 4096 + 4096
    rw [e0]
    show (i 0).val / 4096 * 4096 ≤ (i 0).val ∧ (i 0).val < (i 0).val / 4096 * 4096 + 4096
    omega
  | ⟨1, _⟩ =>
    show win0_6.index ⟨(i 0).val / 4096, hN⟩ (1 : Fin 2) * 1024 ≤ (i 1).val ∧ (i 1).val < win0_6.index ⟨(i 0).val / 4096, hN⟩ (1 : Fin 2) * 1024 + 1024
    rw [e1]
    omega

/-- THE ARRAY after the region: the widened mask. -/
theorem final (c : Dev nD) : (dats m 0 c).arrAt 6 cfg0.N = wide m c :=
  (dats m 0 c).arrAt_eq_of_cover 6 (wide m c) (fun t _ => flushed_eq m c t) cover

/-! ## The host lines after the region, and the run -/

/-- The lines after the region compare the array with zero: the result is the mask of the six arrays the region read. -/
theorem tail_eq (c : Dev nD) :
    Pipeline.afterTail₀ cfgs (dats m) 0 (V0 m) [hostOps1] c main_v85
      = mask2 (prCol m c) (paCol m c) (rlowRow m c) (rupRow m c) (aminRow m c) (amaxRow m c) := by
  unfold Pipeline.afterTail₀
  show StableHlo.after hostOps1 _ (Proc.devRef .tc main_v85) = _
  after_results
  have hA : Pipeline.withArrays (cfgs 0).spec c (V0 m c) (fun w => (dats m 0 c).arrAt w (cfgs 0).N) (Proc.devRef .tc main_v82)
      = wide m c :=
    (Pipeline.withArrays_arr spec0 launch0.win.arr_inj c _ _ 6).trans (final m c)
  rw [hA]
  funext i
  exact ne_zero_widened _

/-- THE RUN, read: the result is the mask of the six arrays the region read, and the arguments are unchanged. -/
theorem run : θ_run defs (onTc (τ := τ) (main (F := F))) ⟨m, fun _ => 0, ρ⟩ fun r => ∀ c : Dev nD,
      r.2.mem ((c : Thread nD τ).loc main_v85) = mask2 (prCol m c) (paCol m c) (rlowRow m c) (rupRow m c) (aminRow m c) (amaxRow m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨((h c).2 main_v85 (Pipeline.mem_restRefs_of main_v85 (by decide) (by decide))).trans (tail_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.KernelIdeal.MaskValue

end
-- ==== Proof.PointColumns.lean ====
/-
  The two point columns the kernel's region reads, as the reference's own stages.

  Before the region the kernel's program slices the range and the azimuth out of the points array, wraps a
  negative azimuth by adding 2π, and reshapes each [131072] vector to a [131072, 1] column. The reference's
  program applies the same operations, with the same literals, to the same argument, and names the two vectors
  its stages `%64` and `%76`. So each column is the reference's stage cast to a column: the two terms are the
  same composition of operations, and the equation is closed by comparing them.
-/
import proofs.«409097_j84550726189430_3_alg».proof.Proof.Gen.KernelIdeal.Frame
import proofs.«409097_j84550726189430_3_alg».proof.Proof.Gen.ReferenceIdeal.Read
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.StableHlo

namespace Cert.KernelIdeal.HostSide

open Cert.KernelIdeal Cert.KernelIdeal.Gen

variable {F : FTy → Type} [FloatOps F]
variable (m : (ℓ : Loc nD τ sig) → Buf (Elt F) ℓ)

set_option maxHeartbeats 4000000 in
/-- The range column is the reference's range vector, as a column. -/
theorem range_column (c : Dev nD) :
    (V m c main_v76 : S131072x1.Idx → Elt F .f32)
      = shapeCast S131072x1 (Cert.ReferenceIdeal.Read.val_main_v64 (F := F) (m ((c : Thread nD τ).loc main_arg0))) shapeCasts_S131072_S131072x1 := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_results_simp
  rfl

set_option maxHeartbeats 4000000 in
/-- The wrapped-azimuth column is the reference's wrapped azimuth vector, as a column. -/
theorem azimuth_column (c : Dev nD) :
    (V m c main_v77 : S131072x1.Idx → Elt F .f32)
      = shapeCast S131072x1 (Cert.ReferenceIdeal.Read.val_main_v76 (F := F) (m ((c : Thread nD τ).loc main_arg0))) shapeCasts_S131072_S131072x1 := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_results_simp
  rfl

end Cert.KernelIdeal.HostSide

end
-- ==== Proof.BoxRows.lean ====
/-
  The four box rows the kernel's region reads, as the reference's own stages.

  Before the region the kernel's program computes, per box, the range gate (r_min and r_max moved apart by
  min(1.05 |r_max − r_min|, 5)) and the angle gate (the two corner angles wrapped to [0, 2π), moved apart by
  the clipped offset min(1.05 · width, 5) / range_center, and wrapped again), and reshapes each [1024] vector
  to a [1, 1024] row. The reference's program applies the same operations, with the same literals, to the
  same argument, and names the four vectors its stages `%13` (r_low), `%14` (r_upper), `%62` (angle_min) and
  `%57` (angle_max). So each row is the reference's stage cast to a row: the two terms are the same
  composition of operations, and the equation is closed by comparing them, never by evaluating them.
-/
import proofs.«409097_j84550726189430_3_alg».proof.Proof.Gen.KernelIdeal.Frame
import proofs.«409097_j84550726189430_3_alg».proof.Proof.Gen.ReferenceIdeal.Read
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.StableHlo

namespace Cert.KernelIdeal.HostSide

open Cert.KernelIdeal Cert.KernelIdeal.Gen

variable {F : FTy → Type} [FloatOps F]
variable (m : (ℓ : Loc nD τ sig) → Buf (Elt F) ℓ)

set_option maxHeartbeats 4000000 in
/-- The r_low row is the reference's r_low vector, as a row. -/
theorem r_low_row (c : Dev nD) :
    (V m c main_v78 : S1x1024.Idx → Elt F .f32)
      = shapeCast S1x1024 (Cert.ReferenceIdeal.Read.val_main_v13 (F := F) (m ((c : Thread nD τ).loc main_arg1))) shapeCasts_S1024_S1x1024 := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_results_simp
  rfl

set_option maxHeartbeats 4000000 in
/-- The r_upper row is the reference's r_upper vector, as a row. -/
theorem r_upper_row (c : Dev nD) :
    (V m c main_v79 : S1x1024.Idx → Elt F .f32)
      = shapeCast S1x1024 (Cert.ReferenceIdeal.Read.val_main_v14 (F := F) (m ((c : Thread nD τ).loc main_arg1))) shapeCasts_S1024_S1x1024 := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_results_simp
  rfl

set_option maxHeartbeats 4000000 in
/-- The angle_min row is the reference's angle_min vector, as a row. -/
theorem angle_min_row (c : Dev nD) :
    (V m c main_v80 : S1x1024.Idx → Elt F .f32)
      = shapeCast S1x1024 (Cert.ReferenceIdeal.Read.val_main_v62 (F := F) (m ((c : Thread nD τ).loc main_arg1))) shapeCasts_S1024_S1x1024 := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_results_simp
  rfl

set_option maxHeartbeats 4000000 in
/-- The angle_max row is the reference's angle_max vector, as a row. -/
theorem angle_max_row (c : Dev nD) :
    (V m c main_v81 : S1x1024.Idx → Elt F .f32)
      = shapeCast S1x1024 (Cert.ReferenceIdeal.Read.val_main_v57 (F := F) (m ((c : Thread nD τ).loc main_arg1))) shapeCasts_S1024_S1x1024 := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_results_simp
  rfl

end Cert.KernelIdeal.HostSide

end
-- ==== Proof.KernelResult.lean ====
/-
  The kernel's result as the mask of the reference's six gate vectors of the kernel's own arguments.

  The run leaves the mask of the six arrays the region read (the two point columns and the four box rows);
  each of those is one of the reference's gate vectors cast to a column or a row; and the mask over such
  columns and rows is the mask of the vectors.
-/
import proofs.«409097_j84550726189430_3_alg».proof.Proof.KernelMask
import proofs.«409097_j84550726189430_3_alg».proof.Proof.PointColumns
import proofs.«409097_j84550726189430_3_alg».proof.Proof.BoxRows

noncomputable section

open Idealize.ShloMosaic Idealize.ShloMosaic.TcCoe Idealize.SL.Sem

namespace Cert.KernelIdeal.MaskValue

open Cert.KernelIdeal Cert.KernelIdeal.Gen Cert.MaskSpec Cert.ReferenceIdeal.Read

variable {F : FTy → Type} [FloatOps F]
variable (m : (ℓ : Loc nD τ sig) → Buf (Elt F) ℓ) (ρ : Dev nD → PrngReg)

/-- The mask of the six arrays the region read is the mask of the reference's gate vectors of the arguments. -/
theorem mask2_arrays (c : Dev nD) :
    mask2 (prCol m c) (paCol m c) (rlowRow m c) (rupRow m c) (aminRow m c) (amaxRow m c)
      = mask (val_main_v64 (F := F) (m ((c : Thread nD τ).loc main_arg0))) (val_main_v76 (F := F) (m ((c : Thread nD τ).loc main_arg0)))
          (val_main_v13 (F := F) (m ((c : Thread nD τ).loc main_arg1))) (val_main_v14 (F := F) (m ((c : Thread nD τ).loc main_arg1)))
          (val_main_v62 (F := F) (m ((c : Thread nD τ).loc main_arg1))) (val_main_v57 (F := F) (m ((c : Thread nD τ).loc main_arg1))) := by
  show mask2 (V m c main_v76) (V m c main_v77) (V m c main_v78) (V m c main_v79) (V m c main_v80) (V m c main_v81) = _
  rw [HostSide.range_column m c, HostSide.azimuth_column m c, HostSide.r_low_row m c, HostSide.r_upper_row m c,
    HostSide.angle_min_row m c, HostSide.angle_max_row m c]
  exact mask2_cast _ _ _ _ _ _ _ _

/-- THE KERNEL'S RUN: the result is the mask of the reference's six gate vectors of the kernel's arguments. -/
theorem run_mask : θ_run defs (onTc (τ := τ) (main (F := F))) ⟨m, fun _ => 0, ρ⟩ fun r => ∀ c : Dev nD,
      r.2.mem ((c : Thread nD τ).loc main_v85)
        = mask (val_main_v64 (F := F) (m ((c : Thread nD τ).loc main_arg0))) (val_main_v76 (F := F) (m ((c : Thread nD τ).loc main_arg0)))
            (val_main_v13 (F := F) (m ((c : Thread nD τ).loc main_arg1))) (val_main_v14 (F := F) (m ((c : Thread nD τ).loc main_arg1)))
            (val_main_v62 (F := F) (m ((c : Thread nD τ).loc main_arg1))) (val_main_v57 (F := F) (m ((c : Thread nD τ).loc main_arg1)))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (mask2_arrays m c), (h c).2⟩) (run m ρ)

end Cert.KernelIdeal.MaskValue

end
-- ==== Proof.RefMask.lean ====
/-
  The reference's result as the mask of six of its own stages.

  The host program computes six vectors — the points' range (`%64`) and wrapped azimuth (`%76`), the boxes'
  r_low (`%13`), r_upper (`%14`), angle_min (`%62`) and angle_max (`%57`) — and then only lays them out
  and compares: each point vector is broadcast to a column and along the boxes' axis, each box vector to a row and
  along the points' axis, and the four comparisons are joined by `and`. Read at `(p, b)` every broadcast of a point
  vector is the vector at `p` and every broadcast of a box vector the vector at `b`, so the last stage is
  `MaskSpec.mask` of the six vectors.
-/
import proofs.«409097_j84550726189430_3_alg».proof.Proof.Gen.ReferenceIdeal.Read
import proofs.«409097_j84550726189430_3_alg».proof.Proof.MaskSpec
import Idealize.ShloMosaic.Lib.ValueIdx

noncomputable section

open Idealize.ShloMosaic Idealize.ShloMosaic.ValueIdx

namespace Cert.ReferenceIdeal.MaskValue

open Cert.ReferenceIdeal Cert.ReferenceIdeal.Gen Cert.ReferenceIdeal.Read Cert.MaskSpec

variable {F : FTy → Type} [FloatOps F]

/-- The host's last stage is the mask of its six gate vectors. -/
theorem result_eq (x0 : (⟨S131072x2, .f32⟩ : BufTy).Contents (Elt F)) (x1 : (⟨S1024x4, .f32⟩ : BufTy).Contents (Elt F)) :
    val_main_v96 (F := F) x0 x1
      = mask (val_main_v64 (F := F) x0) (val_main_v76 (F := F) x0) (val_main_v13 (F := F) x1) (val_main_v14 (F := F) x1)
          (val_main_v62 (F := F) x1) (val_main_v57 (F := F) x1) := by
  funext i
  obtain ⟨p, b, rfl⟩ : ∃ (p : Fin 131072) (b : Fin 1024), i = ix2 p b := ⟨i 0, i 1, eq_ix2 i⟩
  -- a point vector's column, broadcast along the boxes, read at (p, b), is the vector at p
  have h79 : idx_main_v65 (idx_main_v79 (ix2 p b)) = ix1 p := funext fun a => match a with | ⟨0, _⟩ => rfl
  have h83 : idx_main_v65 (idx_main_v83 (ix2 p b)) = ix1 p := funext fun a => match a with | ⟨0, _⟩ => rfl
  have h88 : idx_main_v77 (idx_main_v88 (ix2 p b)) = ix1 p := funext fun a => match a with | ⟨0, _⟩ => rfl
  have h93 : idx_main_v77 (idx_main_v93 (ix2 p b)) = ix1 p := funext fun a => match a with | ⟨0, _⟩ => rfl
  -- a box vector's row, broadcast along the points, read at (p, b), is the vector at b
  have h80 : idx_main_v78 (idx_main_v80 (ix2 p b)) = ix1 b := funext fun a => match a with | ⟨0, _⟩ => rfl
  have h84 : idx_main_v82 (idx_main_v84 (ix2 p b)) = ix1 b := funext fun a => match a with | ⟨0, _⟩ => rfl
  have h89 : idx_main_v87 (idx_main_v89 (ix2 p b)) = ix1 b := funext fun a => match a with | ⟨0, _⟩ => rfl
  have h94 : idx_main_v92 (idx_main_v94 (ix2 p b)) = ix1 b := funext fun a => match a with | ⟨0, _⟩ => rfl
  rw [val_main_v96_apply, val_main_v91_apply, val_main_v86_apply, val_main_v81_apply, val_main_v85_apply,
    val_main_v90_apply, val_main_v95_apply]
  -- one broadcast chain at a time, down to the vector at its coordinate
  rw [val_main_v79_apply, val_main_v65_apply, h79]
  rw [val_main_v83_apply, val_main_v65_apply, h83]
  rw [val_main_v88_apply, val_main_v77_apply, h88]
  rw [val_main_v93_apply, val_main_v77_apply, h93]
  rw [val_main_v80_apply, val_main_v78_apply, h80]
  rw [val_main_v84_apply, val_main_v82_apply, h84]
  rw [val_main_v89_apply, val_main_v87_apply, h89]
  rw [val_main_v94_apply, val_main_v92_apply, h94]
  rfl

end Cert.ReferenceIdeal.MaskValue

end
-- ==== Proof.lean ====
/-
  Point-box association masks: a Pallas kernel against its jnp reference, equal over the extended reals.

  Both programs take the points (range, azimuth) and the boxes' polar corners and return, for every point `p`
  and box `b`, the bit `r_low b < r p < r_upper b ∧ angle_min b < a p < angle_max b`, where `a` is the azimuth
  with negatives wrapped by 2π and the four box parameters come from the corners by the same host arithmetic
  in both programs (same operations, same literals). They differ in layout only. The reference broadcasts the
  six vectors to [131072, 1024] and compares. The kernel reshapes them to columns and rows, runs a grid of 32
  points each of which gates 4096 points against all 1024 boxes and stores the bits widened to 32-bit words,
  and then compares the stored array with zero.

  * `Proof/MaskSpec.lean`: the gate, the mask of six vectors, the mask over columns and rows, and that
    `≠ 0` of a widened bit is the bit.
  * `Proof/KernelMask.lean`: the kernel's run read off the generated frame run — the stored block at an
    index, each input block as rows of its array, the 32 blocks tiling the array, the host lines after the region.
  * `Proof/PointColumns.lean`, `Proof/BoxRows.lean`: the six arrays the region reads are the reference's six
    gate vectors as columns and rows (one composition of host operations on both sides).
  * `Proof/KernelResult.lean`: so the kernel's result is the mask of those vectors.
  * `Proof/RefMask.lean`: the reference's last stage, read at an index, is the same mask.

  No law of the extended reals is used, so the precondition (finite inputs) is never opened: the two sides
  are one function of the arguments. The idealization rewrites no operation, so `preserves` is trivial; the frames of
  the two kernel programs are the generated ones, the reference's frame its generated run with the result dropped.
-/
import proofs.«409097_j84550726189430_3_alg».proof.Defs
import proofs.«409097_j84550726189430_3_alg».proof.Proof.Gen.Kernel
import proofs.«409097_j84550726189430_3_alg».proof.Proof.Gen.Kernel.Skeleton
import proofs.«409097_j84550726189430_3_alg».proof.Proof.Gen.Kernel.Launch
import proofs.«409097_j84550726189430_3_alg».proof.Proof.Gen.Kernel.Points
import proofs.«409097_j84550726189430_3_alg».proof.Proof.Gen.Kernel.Frame
import proofs.«409097_j84550726189430_3_alg».proof.Proof.Gen.KernelIdeal
import proofs.«409097_j84550726189430_3_alg».proof.Proof.Gen.KernelIdeal.Skeleton
import proofs.«409097_j84550726189430_3_alg».proof.Proof.Gen.KernelIdeal.Launch
import proofs.«409097_j84550726189430_3_alg».proof.Proof.Gen.KernelIdeal.Points
import proofs.«409097_j84550726189430_3_alg».proof.Proof.Gen.KernelIdeal.Frame
import proofs.«409097_j84550726189430_3_alg».proof.Proof.Gen.ReferenceIdeal
import proofs.«409097_j84550726189430_3_alg».proof.Proof.Gen.ReferenceIdeal.Run
import proofs.«409097_j84550726189430_3_alg».proof.Proof.Gen.ReferenceIdeal.Read
import proofs.«409097_j84550726189430_3_alg».proof.Proof.Gen.Pre_finite_inputs
import proofs.«409097_j84550726189430_3_alg».proof.Proof.MaskSpec
import proofs.«409097_j84550726189430_3_alg».proof.Proof.KernelMask
import proofs.«409097_j84550726189430_3_alg».proof.Proof.PointColumns
import proofs.«409097_j84550726189430_3_alg».proof.Proof.BoxRows
import proofs.«409097_j84550726189430_3_alg».proof.Proof.KernelResult
import proofs.«409097_j84550726189430_3_alg».proof.Proof.RefMask
import Idealize.ShloMosaic.Adequacy
import Idealize.ShloMosaic.Init

noncomputable section

namespace Cert.Proof

open Idealize.ShloMosaic Idealize.SL.Sem

/-- The word-level kernel runs and keeps its arguments: the generated frame. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference runs and keeps its arguments: its generated run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrites no operation. -/
theorem preserves : Cert.preserves_Kernel_KernelIdeal := trivial

/-- From memories agreeing on the arguments both programs end with the mask of the same six gate vectors of the
    arguments: the kernel by its run read through the blocks, the reference by its last stage read at an index. -/
theorem algebraic : Cert.algebraic_KernelIdeal_ReferenceIdeal := by
  intro m ρ m' ρ' _ hagree
  refine ⟨_, Cert.KernelIdeal.MaskValue.run_mask (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v96_eq, Cert.ReferenceIdeal.MaskValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
